-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S256x128 .f32) (main_arg11 : FVec F S128 .f32) (main_arg12 : FVec F S128x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S1600000 32) (main_arg2 : IVec S1600000 32) (main_arg3 : FVec F S1600000 .f32) (main_arg4 : FVec F S128x128 .f32) (main_arg5 : FVec F S128x64 .f32) (main_arg6 : FVec F S128x128 .f32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S5000x256 : Shape := ⟨2, ![5000, 256]⟩

abbrev nBuf : Space → Nat
  | .hbm => 53
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S1x128, .f32⟩
  | .hbm, ⟨31, _⟩ => ⟨S1x64, .f32⟩
  | .hbm, ⟨32, _⟩ => ⟨S1x128, .f32⟩
  | .hbm, ⟨33, _⟩ => ⟨S1x64, .f32⟩
  | .hbm, ⟨34, _⟩ => ⟨S50000x128, .f32⟩
  | .hbm, ⟨35, _⟩ => ⟨S50000x64, .f32⟩
  | .hbm, ⟨36, _⟩ => ⟨S1600000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S50000x128, .f32⟩
  | .hbm, ⟨50, _⟩ => ⟨S1600000x1, .i32⟩
  | .hbm, ⟨51, _⟩ => ⟨S50000x128, .f32⟩
  | .hbm, ⟨52, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x64, .f32⟩
  | .local _ .vmem, ⟨20, _⟩ => ⟨S256x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x128_S5000x64_S5000x256_d1 : Shape.Concatenates [S5000x64, S5000x128, S5000x64] S5000x256 1
  inb_S256x128_S256x128_0_0 : ∀ a, (![0, 0] : Fin 2 → Nat) a + S256x128.size a ≤ S256x128.size a
  h_S256x128 : 0 < S256x128.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17_1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128x64 : Shape := ⟨2, ![128, 64]⟩
abbrev S128 : Shape := ⟨1, ![128]⟩
abbrev S64 : Shape := ⟨1, ![64]⟩
abbrev S256x128 : Shape := ⟨2, ![256, 128]⟩
abbrev S1600000x1 : Shape := ⟨2, ![1600000, 1]⟩
abbrev S_ : Shape := ⟨0, ![]⟩
abbrev S1600000x128 : Shape := ⟨2, ![1600000, 128]⟩
abbrev S50000x64 : Shape := ⟨2, ![50000, 64]⟩
abbrev S1x128 : Shape := ⟨2, ![1, 128]⟩
abbrev S1x64 : Shape := ⟨2, ![1, 64]⟩
abbrev S50000x256 : Shape := ⟨2, ![50000, 256]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x64, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S50000x256, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_cst : Ref sig .tc := ⟨.hbm, 55, rfl⟩
abbrev main_call1_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x128_S50000x64_S50000x256_d1 : Shape.Concatenates [S50000x64, S50000x128, S50000x64] S50000x256 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x256_S256x128_S50000x128_1_0_0_1_n_n_wf : DotDims.WF S50000x256 S256x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, row by row.

  A node's output row depends only on that node's rows of the arrays that enter the dense part
  (its features, its two neighbourhood sums) and on the weights.  With `x` a row of length `K` and
  `W` a `K × N` matrix, `vecmat x W q = ∑ k, x k * W[k, q]` is the row-times-matrix product; the
  rectifier is the maximum with the value of the zero word.  Then, for one node,
      conv1 = max (agg1 · W1) 0
      self  = max (x · Wm1 + bm1) 0 · Wm2 + bm2
      out   = max ((self ‖ conv1 ‖ agg2 · W2) · Wh1 + bh1) 0 · Wh2 + bh2
  where `‖` joins a row of 64, a row of 128 and a row of 64 into one of 256.  The arrays are these
  rows stacked: entry `(p, q)` of an array is entry `q` of node `p`'s row.  Everything is stated for
  any number `n` of rows, so that one text serves a tile of rows and the whole array.
-/
import Idealize.ShloMosaic.PureOps.Ideal
import Idealize.ShloMosaic.Lib.ValueIdx

noncomputable section

open scoped BigOperators

namespace Cert.Gnn

open Idealize.ShloMosaic Idealize.ShloMosaic.ValueIdx

/-- An `n × k` array of extended reals. -/
abbrev Mat (n k : Nat) : Type := (⟨2, ![n, k]⟩ : Shape).Idx → EReal
/-- A length-`k` array of extended reals. -/
abbrev Vc (k : Nat) : Type := (⟨1, ![k]⟩ : Shape).Idx → EReal

/-- The value of the single-precision zero word. -/
abbrev zero : EReal := Ideal.ofBits .f32 0x00000000#32

/-- Row `p` of an array. -/
def rowOf {n k : Nat} (X : Mat n k) (p : Fin n) : Fin k → EReal := fun c => X (ix2 p c)

/-- A `1 × k` array read as a length-`k` array (a bias kept as one row). -/
def rowvec {k : Nat} (v : Mat 1 k) : Vc k := fun i => v (ix2 (0 : Fin 1) (i 0))

/-- A row times a matrix, at column `q`. -/
def vecmat {K N : Nat} (x : Fin K → EReal) (W : Mat K N) (q : Fin N) : EReal :=
  ∑ k : Fin K, x k * W (ix2 k q)

/-- First graph convolution of one node: the rectified product of its neighbourhood sum with `W1`. -/
def conv1Row (a : Fin 128 → EReal) (W1 : Mat 128 128) : Fin 128 → EReal :=
  fun q => max (vecmat a W1 q) zero

/-- Hidden layer of the node's own path: `max (x · Wm1 + bm1) 0`. -/
def hidRow (x : Fin 128 → EReal) (Wm1 : Mat 128 128) (bm1 : Vc 128) : Fin 128 → EReal :=
  fun q => max (vecmat x Wm1 q + bm1 (ix1 q)) zero

/-- The node's own path: `hid · Wm2 + bm2`. -/
def selfRow (x : Fin 128 → EReal) (Wm1 : Mat 128 128) (bm1 : Vc 128) (Wm2 : Mat 128 64) (bm2 : Vc 64) :
    Fin 64 → EReal :=
  fun q => vecmat (hidRow x Wm1 bm1) Wm2 q + bm2 (ix1 q)

/-- Three rows of lengths 64, 128, 64 laid end to end. -/
def cat3 (s : Fin 64 → EReal) (c1 : Fin 128 → EReal) (c2 : Fin 64 → EReal) : Fin 256 → EReal :=
  fun j => if h : j.val < 64 then s ⟨j.val, h⟩
    else if h2 : j.val < 192 then c1 ⟨j.val - 64, by omega⟩
    else c2 ⟨j.val - 192, by have := j.isLt; omega⟩

/-- Hidden layer of the head: `max ((self ‖ conv1 ‖ agg2 · W2) · Wh1 + bh1) 0`. -/
def headHidRow (s : Fin 64 → EReal) (c1 : Fin 128 → EReal) (a2 : Fin 128 → EReal)
    (W2 : Mat 128 64) (Wh1 : Mat 256 128) (bh1 : Vc 128) : Fin 128 → EReal :=
  fun k => max (vecmat (cat3 s c1 (fun q => vecmat a2 W2 q)) Wh1 k + bh1 (ix1 k)) zero

/-- The head of one node: `headHid · Wh2 + bh2`. -/
def headRow (s : Fin 64 → EReal) (c1 : Fin 128 → EReal) (a2 : Fin 128 → EReal)
    (W2 : Mat 128 64) (Wh1 : Mat 256 128) (bh1 : Vc 128) (Wh2 : Mat 128 64) (bh2 : Vc 64) : Fin 64 → EReal :=
  fun q => vecmat (headHidRow s c1 a2 W2 Wh1 bh1) Wh2 q + bh2 (ix1 q)

/-! ## The arrays: rows stacked -/

/-- First graph convolution of every node, from the array of neighbourhood sums. -/
def conv1Arr {n : Nat} (A : Mat n 128) (W1 : Mat 128 128) : Mat n 128 :=
  fun j => conv1Row (rowOf A (j 0)) W1 (j 1)

/-- Every node's own path, from the array of features. -/
def selfArr {n : Nat} (X : Mat n 128) (Wm1 : Mat 128 128) (bm1 : Vc 128) (Wm2 : Mat 128 64) (bm2 : Vc 64) :
    Mat n 64 :=
  fun j => selfRow (rowOf X (j 0)) Wm1 bm1 Wm2 bm2 (j 1)

/-- Every node's head, from the arrays of own paths, first convolutions and second neighbourhood sums. -/
def headArr {n : Nat} (S : Mat n 64) (C1 : Mat n 128) (A2 : Mat n 128)
    (W2 : Mat 128 64) (Wh1 : Mat 256 128) (bh1 : Vc 128) (Wh2 : Mat 128 64) (bh2 : Vc 64) : Mat n 64 :=
  fun j => headRow (rowOf S (j 0)) (rowOf C1 (j 0)) (rowOf A2 (j 0)) W2 Wh1 bh1 Wh2 bh2 (j 1)

/-- The whole network, given the sparse aggregation `agg` (the same map in both layers): the head of
    own paths, first convolutions, and the aggregation of the first convolutions. -/
def net {n : Nat} (agg : Mat n 128 → Mat n 128) (X : Mat n 128)
    (W1 : Mat 128 128) (W2 : Mat 128 64) (Wm1 : Mat 128 128) (bm1 : Vc 128) (Wm2 : Mat 128 64) (bm2 : Vc 64)
    (Wh1 : Mat 256 128) (bh1 : Vc 128) (Wh2 : Mat 128 64) (bh2 : Vc 64) : Mat n 64 :=
  headArr (selfArr X Wm1 bm1 Wm2 bm2) (conv1Arr (agg X) W1) (agg (conv1Arr (agg X) W1)) W2 Wh1 bh1 Wh2 bh2

end Cert.Gnn

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0.lean ====
/-
  What the first tiled kernel leaves in its two output arrays, as whole-array functions of the arrays it
  finds when it is entered: the first graph convolution `max (agg1 · W1) 0` and the nodes' own path
  `max (x · Wm1 + bm1) 0 · Wm2 + bm2`.  Grid point `t` works on rows `5000 t … 5000 t + 4999`; a row of
  the result depends only on the same row of the inputs, so each tile is the restriction of one function
  of the whole arrays, and the ten tiles cover the 50000 rows.
-/
import proofs.«134644_j5471788335183_1_alg».proof.Proof.Gen.KernelIdeal.Frame
import proofs.«134644_j5471788335183_1_alg».proof.Proof.Spec
import proofs.«134644_j5471788335183_1_alg».proof.Proof.LibDot2
import Idealize.ShloMosaic.Lib.Pipeline.Value
import Idealize.ShloMosaic.Lib.ValueLayout

set_option maxRecDepth 16384

noncomputable section

namespace Cert.KernelIdeal.R0

open Cert.KernelIdeal Cert.KernelIdeal.Gen Cert.Gnn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed dimension numbers of the `5000×128` by `128×128` product are the plain matrix product's. -/
theorem dims_by_128x128 : dot_S5000x128_S128x128_S5000x128_1_0_0_1_n_n
    = Dot2.mmDims 5000 128 128 Facts₀.dot_S5000x128_S128x128_S5000x128_1_0_0_1_n_n_wf := rfl

/-- The printed dimension numbers of the `5000×128` by `128×64` product are the plain matrix product's. -/
theorem dims_by_128x64 : dot_S5000x128_S128x64_S5000x64_1_0_0_1_n_n
    = Dot2.mmDims 5000 128 64 Facts₀.dot_S5000x128_S128x64_S5000x64_1_0_0_1_n_n_wf := rfl

set_option maxHeartbeats 400000 in
/-- The first payload at row `p`, column `q` of a tile: the rectified product of row `p` of the
    neighbourhood sums with `W1` (the changes of format are the identity on the extended reals, the
    product into the zero accumulator is the plain sum). -/
theorem conv1_payload_apply (x1 : Vec Ideal S5000x128 .f32) (x6 : Vec Ideal S128x128 .f32) (p : Fin 5000) (q : Fin 128) :
    k0_pay1 x1 x6 (ix2 p q) = conv1Row (rowOf x1 p) x6 q := by
  unfold k0_pay1
  rw [shapeCast_self, dims_by_128x128]
  refine (congrArg (fun z => max z zero) (Dot2.matmul_zero_mm_apply _ none
    (truncf .bf16 x1 Facts₀.bitsLt_bf16_f32) (truncf .bf16 x6 Facts₀.bitsLt_bf16_f32) p q)).trans ?_
  rfl

set_option maxHeartbeats 400000 in
/-- The second payload at row `p`, column `q` of a tile: the own path of row `p` of the features. -/
theorem self_payload_apply (x0 : Vec Ideal S5000x128 .f32) (x2 : Vec Ideal S128x128 .f32) (x4 : Vec Ideal S128x64 .f32)
    (x3 : Vec Ideal S1x128 .f32) (x5 : Vec Ideal S1x64 .f32) (p : Fin 5000) (q : Fin 64) :
    k0_pay2 x0 x2 x4 x3 x5 (ix2 p q) = selfRow (rowOf x0 p) x2 (rowvec x3) x4 (rowvec x5) q := by
  unfold k0_pay2
  rw [shapeCast_self, shapeCast_self, dims_by_128x128, dims_by_128x64]
  show FloatOps.matmul (F := Ideal) (Dot2.mmDims 5000 128 64 _) none _ _ (constant (F := Ideal) ⟨2, ![5000, 64]⟩ .f32 0x00000000#32) (ix2 p q)
      + broadcastTo S5000x64 x5 _ (ix2 p q) = _
  rw [Dot2.matmul_zero_mm_apply, broadcastTo_1b_ab_apply]
  unfold selfRow vecmat
  refine congrArg (fun z => z + x5 (ix2 (0 : Fin 1) q)) (Finset.sum_congr rfl fun k _ => ?_)
  refine congrArg (fun z => z * x4 (ix2 k q)) ?_
  show max (FloatOps.matmul (F := Ideal) (Dot2.mmDims 5000 128 128 _) none _ _ (constant (F := Ideal) ⟨2, ![5000, 128]⟩ .f32 0x00000000#32) (ix2 p k)
      + broadcastTo S5000x128 x3 _ (ix2 p k)) zero = _
  rw [Dot2.matmul_zero_mm_apply, broadcastTo_1b_ab_apply]
  rfl

/-- The zero offsets, as the accesses of the body spell them. -/
theorem zero_offsets : (![0, 0] : Fin 2 → Nat) = fun _ => 0 := funext fun a => by fin_cases a <;> rfl

/-- The printed index maps, decided over the ten grid points: the tiled inputs (features, neighbourhood sums)
    and the two outputs all sit at block row `t`, block column 0; the weights and biases at block (0, 0). -/
theorem tile_indices : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_8.index t (0 : Fin 2) = win0_7.index t (0 : Fin 2) ∧ win0_8.index t (1 : Fin 2) = 0
    ∧ win0_7.index t (1 : Fin 2) = 0 ∧ win0_7.index t (0 : Fin 2) ≤ 9
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block row of the outputs is some grid point's. -/
theorem tile_rows_onto : ∀ q : Fin 10, ∃ t : Fin cfg0.N, win0_7.index t (0 : Fin 2) = q.val :=
  (by decide +kernel : ∀ q : Fin 10, ∃ t : Fin grid0.N, win0_7.index t (0 : Fin 2) = q.val)

set_option maxHeartbeats 400000 in
/-- What grid point `t` writes back into the first convolution's array is tile `t` of `conv1Arr` of the
    neighbourhood sums and `W1` as the region finds them. -/
theorem conv1_tile_written (c : Dev nD) (t : Fin cfg0.N) :
    (dat0 V c).flushed 7 t
      = ((cfg0.win 7).blk t).view.read (Elt Ideal) (conv1Arr (V c main_v12) (V c main_arg4)) := by
  show (cfg0.win 7).cut (grid0.coords t) ((dat0 V c).after 7 t) = _
  rw [after0_7]
  unfold out0_7
  rw [View.canon_unit_zero zero_offsets]
  simp only [View.ld_unit_zero (S := S5000x128) zero_offsets, View.ld_unit_zero (S := S128x128) zero_offsets]
  funext y
  obtain ⟨p, q, rfl⟩ : ∃ (p : Fin 5000) (q : Fin 128), y = ix2 p q := ⟨y 0, y 1, eq_ix2 y⟩
  obtain ⟨e00, e01, e10, e11, e80, e81, e71, e7le, e20, e21, e30, e31, e40, e41, e50, e51, e60, e61⟩ := tile_indices t
  show k0_pay1 (iblk0 V c 1 t) (iblk0 V c 6 t) (ix2 p q)
      = conv1Arr (V c main_v12) (V c main_arg4) (((cfg0.win 7).blk t).view.emb (ix2 p q))
  refine (conv1_payload_apply _ _ p q).trans ?_
  have hW : (iblk0 V c 6 t : Vec Ideal S128x128 .f32) = V c main_arg4 := by
    funext j
    show V c main_arg4 (((cfg0.win 6).blk t).view.emb j) = V c main_arg4 j
    refine congrArg (V c main_arg4) (funext fun a => Fin.ext ?_)
    match a with
    | ⟨0, _⟩ => show win0_6.index t (0 : Fin 2) * 128 + 1 * (j 0).val = (j 0).val; omega
    | ⟨1, _⟩ => show win0_6.index t (1 : Fin 2) * 128 + 1 * (j 1).val = (j 1).val; omega
  have hA : rowOf (iblk0 V c 1 t : Vec Ideal S5000x128 .f32) p
      = rowOf (V c main_v12 : Mat 50000 128) ((((cfg0.win 7).blk t).view.emb (ix2 p q)) 0) := by
    funext k
    show V c main_v12 (((cfg0.win 1).blk t).view.emb (ix2 p k))
        = V c main_v12 (ix2 ((((cfg0.win 7).blk t).view.emb (ix2 p q)) 0) k)
    refine congrArg (V c main_v12) (funext fun a => Fin.ext ?_)
    match a with
    | ⟨0, _⟩ => show win0_1.index t (0 : Fin 2) * 5000 + 1 * p.val = win0_7.index t (0 : Fin 2) * 5000 + 1 * p.val; omega
    | ⟨1, _⟩ => show win0_1.index t (1 : Fin 2) * 128 + 1 * k.val = k.val; omega
  have hq : (((cfg0.win 7).blk t).view.emb (ix2 p q)) 1 = q :=
    Fin.ext (show win0_7.index t (1 : Fin 2) * 128 + 1 * q.val = q.val by omega)
  unfold conv1Arr
  rw [hA, hW, hq]

/-- An index of the first convolution's array is in grid point `t`'s tile iff each coordinate is in the
    tile's range on its axis. -/
theorem mem_conv1_tile (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v17_0).slice (win0_7.rect t)).set ↔ _
  rw [View.set_slice_whole, Rect.mem_set_unit]
  exact Iff.rfl

/-- Row `r` of the first convolution's array is written back by the grid point whose tile is number `r / 5000`:
    the ten tiles cover the 50000 rows. -/
theorem conv1_tiles_cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := tile_rows_onto ⟨(i 0).val / 5000, by omega⟩
  have q0 : win0_7.index t (0 : Fin 2) = (i 0).val / 5000 := ht
  obtain ⟨e00, e01, e10, e11, e80, e81, e71, e7le, -⟩ := tile_indices t
  refine ⟨t, flush0_7 t, ?_⟩
  rw [mem_conv1_tile]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The first convolution's array after the region: `conv1Arr` of the neighbourhood sums and `W1` as entered. -/
theorem final0_7 (c : Dev nD) :
    (dat0 V c).arrAt 7 cfg0.N = conv1Arr (V c main_v12) (V c main_arg4) :=
  (dat0 V c).arrAt_eq_of_cover 7 _ (fun t _ => conv1_tile_written V c t) conv1_tiles_cover

set_option maxHeartbeats 400000 in
/-- What grid point `t` writes back into the own-path array is tile `t` of `selfArr` of the features, weights
    and biases as the region finds them. -/
theorem self_tile_written (c : Dev nD) (t : Fin cfg0.N) :
    (dat0 V c).flushed 8 t
      = ((cfg0.win 8).blk t).view.read (Elt Ideal)
          (selfArr (V c main_arg0) (V c main_arg6) (rowvec (V c main_v13)) (V c main_arg8) (rowvec (V c main_v14))) := by
  show (cfg0.win 8).cut (grid0.coords t) ((dat0 V c).after 8 t) = _
  rw [after0_8]
  unfold out0_8
  rw [View.canon_unit_zero zero_offsets]
  simp only [View.ld_unit_zero (S := S5000x128) zero_offsets, View.ld_unit_zero (S := S128x128) zero_offsets,
    View.ld_unit_zero (S := S128x64) zero_offsets, View.ld_unit_zero (S := S1x128) zero_offsets, View.ld_unit_zero (S := S1x64) zero_offsets]
  funext y
  obtain ⟨p, q, rfl⟩ : ∃ (p : Fin 5000) (q : Fin 64), y = ix2 p q := ⟨y 0, y 1, eq_ix2 y⟩
  obtain ⟨e00, e01, e10, e11, e80, e81, e71, e7le, e20, e21, e30, e31, e40, e41, e50, e51, e60, e61⟩ := tile_indices t
  show k0_pay2 (iblk0 V c 0 t) (iblk0 V c 2 t) (iblk0 V c 4 t) (iblk0 V c 3 t) (iblk0 V c 5 t) (ix2 p q)
      = selfArr (V c main_arg0) (V c main_arg6) (rowvec (V c main_v13)) (V c main_arg8) (rowvec (V c main_v14))
          (((cfg0.win 8).blk t).view.emb (ix2 p q))
  refine (self_payload_apply _ _ _ _ _ p q).trans ?_
  have h2 : (iblk0 V c 2 t : Vec Ideal S128x128 .f32) = V c main_arg6 := by
    funext j
    show V c main_arg6 (((cfg0.win 2).blk t).view.emb j) = V c main_arg6 j
    refine congrArg (V c main_arg6) (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  have h3 : (iblk0 V c 3 t : Vec Ideal S1x128 .f32) = V c main_v13 := by
    funext j
    show V c main_v13 (((cfg0.win 3).blk t).view.emb j) = V c main_v13 j
    refine congrArg (V c main_v13) (funext fun a => Fin.ext ?_)
    match a with
    | ⟨0, _⟩ => show win0_3.index t (0 : Fin 2) * 1 + 1 * (j 0).val = (j 0).val; omega
    | ⟨1, _⟩ => show win0_3.index t (1 : Fin 2) * 128 + 1 * (j 1).val = (j 1).val; omega
  have h4 : (iblk0 V c 4 t : Vec Ideal S128x64 .f32) = V c main_arg8 := by
    funext j
    show V c main_arg8 (((cfg0.win 4).blk t).view.emb j) = V c main_arg8 j
    refine congrArg (V c main_arg8) (funext fun a => Fin.ext ?_)
    match a with
    | ⟨0, _⟩ => show win0_4.index t (0 : Fin 2) * 128 + 1 * (j 0).val = (j 0).val; omega
    | ⟨1, _⟩ => show win0_4.index t (1 : Fin 2) * 64 + 1 * (j 1).val = (j 1).val; omega
  have h5 : (iblk0 V c 5 t : Vec Ideal S1x64 .f32) = V c main_v14 := by
    funext j
    show V c main_v14 (((cfg0.win 5).blk t).view.emb j) = V c main_v14 j
    refine congrArg (V c main_v14) (funext fun a => Fin.ext ?_)
    match a with
    | ⟨0, _⟩ => show win0_5.index t (0 : Fin 2) * 1 + 1 * (j 0).val = (j 0).val; omega
    | ⟨1, _⟩ => show win0_5.index t (1 : Fin 2) * 64 + 1 * (j 1).val = (j 1).val; omega
  have hX : rowOf (iblk0 V c 0 t : Vec Ideal S5000x128 .f32) p
      = rowOf (V c main_arg0 : Mat 50000 128) ((((cfg0.win 8).blk t).view.emb (ix2 p q)) 0) := by
    funext k
    show V c main_arg0 (((cfg0.win 0).blk t).view.emb (ix2 p k))
        = V c main_arg0 (ix2 ((((cfg0.win 8).blk t).view.emb (ix2 p q)) 0) k)
    refine congrArg (V c main_arg0) (funext fun a => Fin.ext ?_)
    match a with
    | ⟨0, _⟩ => show win0_0.index t (0 : Fin 2) * 5000 + 1 * p.val = win0_8.index t (0 : Fin 2) * 5000 + 1 * p.val; omega
    | ⟨1, _⟩ => show win0_0.index t (1 : Fin 2) * 128 + 1 * k.val = k.val; omega
  have hq : (((cfg0.win 8).blk t).view.emb (ix2 p q)) 1 = q :=
    Fin.ext (show win0_8.index t (1 : Fin 2) * 64 + 1 * q.val = q.val by omega)
  unfold selfArr
  rw [hX, h2, h3, h4, h5, hq]

/-- An index of the own-path array is in grid point `t`'s tile iff each coordinate is in the tile's range
    on its axis. -/
theorem mem_self_tile (t : Fin cfg0.N) (i : S50000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v17_1).slice (win0_8.rect t)).set ↔ _
  rw [View.set_slice_whole, Rect.mem_set_unit]
  exact Iff.rfl

/-- Row `r` of the own-path array is written back by the grid point whose tile is number `r / 5000`. -/
theorem self_tiles_cover (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ := tile_rows_onto ⟨(i 0).val / 5000, by omega⟩
  have q0 : win0_7.index t (0 : Fin 2) = (i 0).val / 5000 := ht
  obtain ⟨e00, e01, e10, e11, e80, e81, e71, e7le, -⟩ := tile_indices t
  refine ⟨t, flush0_8 t, ?_⟩
  rw [mem_self_tile]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- The own-path array after the region: `selfArr` of the features, weights and biases as entered. -/
theorem final0_8 (c : Dev nD) :
    (dat0 V c).arrAt 8 cfg0.N
      = selfArr (V c main_arg0) (V c main_arg6) (rowvec (V c main_v13)) (V c main_arg8) (rowvec (V c main_v14)) :=
  (dat0 V c).arrAt_eq_of_cover 8 _ (fun t _ => self_tile_written V c t) self_tiles_cover

end Cert.KernelIdeal.R0

end
-- ==== Proof.Cat.lean ====
/-
  Three arrays of 64, 128 and 64 columns joined along the columns, read at an entry: row `p` of the
  joined array is the three rows `p` laid end to end.
-/
import proofs.«134644_j5471788335183_1_alg».proof.Proof.Spec
import Idealize.ShloMosaic.Lib.Pipeline.Value

noncomputable section

namespace Cert.Gnn

open Idealize.ShloMosaic Idealize.ShloMosaic.ValueIdx

/-- Entry `(p, j)` of the join of `a`, `b`, `c` along axis 1 is entry `j` of `rowOf a p ‖ rowOf b p ‖ rowOf c p`. -/
theorem concat3_apply {n : Nat} (a : Mat n 64) (b : Mat n 128) (c : Mat n 64)
    (h : Shape.Concatenates [(⟨2, ![n, 64]⟩ : Shape), ⟨2, ![n, 128]⟩, ⟨2, ![n, 64]⟩] ⟨2, ![n, 256]⟩ 1)
    (p : Fin n) (j : Fin 256) :
    concatenate (⟨2, ![n, 256]⟩ : Shape) 1
        [⟨(⟨2, ![n, 64]⟩ : Shape), a⟩, ⟨(⟨2, ![n, 128]⟩ : Shape), b⟩, ⟨(⟨2, ![n, 64]⟩ : Shape), c⟩] h (ix2 p j)
      = cat3 (rowOf a p) (rowOf b p) (rowOf c p) j := by
  unfold cat3
  by_cases h1 : j.val < 64
  · rw [dif_pos h1]
    refine (concatenate_apply_piece (t := ⟨2, ![n, 256]⟩) (1 : Fin 2)
      [⟨(⟨2, ![n, 64]⟩ : Shape), a⟩, ⟨(⟨2, ![n, 128]⟩ : Shape), b⟩, ⟨(⟨2, ![n, 64]⟩ : Shape), c⟩] h (ix2 p j)
      0 (by show 0 < 3; omega) ⟨2, ![n, 64]⟩ a rfl rfl 0 rfl (ix2 p ⟨j.val, h1⟩) ?_ ?_).trans rfl
    · intro d hd
      match d with
      | ⟨0, _⟩ => rfl
      | ⟨1, _⟩ => exact absurd rfl hd
    · show 0 + j.val = j.val
      omega
  · rw [dif_neg h1]
    by_cases h2 : j.val < 192
    · rw [dif_pos h2]
      refine (concatenate_apply_piece (t := ⟨2, ![n, 256]⟩) (1 : Fin 2)
        [⟨(⟨2, ![n, 64]⟩ : Shape), a⟩, ⟨(⟨2, ![n, 128]⟩ : Shape), b⟩, ⟨(⟨2, ![n, 64]⟩ : Shape), c⟩] h (ix2 p j)
        1 (by show 1 < 3; omega) ⟨2, ![n, 128]⟩ b rfl rfl 64 ?_ (ix2 p ⟨j.val - 64, by omega⟩) ?_ ?_).trans rfl
      · rfl
      · intro d hd
        match d with
        | ⟨0, _⟩ => rfl
        | ⟨1, _⟩ => exact absurd rfl hd
      · show 64 + (j.val - 64) = j.val
        omega
    · rw [dif_neg h2]
      refine (concatenate_apply_piece (t := ⟨2, ![n, 256]⟩) (1 : Fin 2)
        [⟨(⟨2, ![n, 64]⟩ : Shape), a⟩, ⟨(⟨2, ![n, 128]⟩ : Shape), b⟩, ⟨(⟨2, ![n, 64]⟩ : Shape), c⟩] h (ix2 p j)
        2 (by show 2 < 3; omega) ⟨2, ![n, 64]⟩ c rfl rfl 192 ?_
        (ix2 p ⟨j.val - 192, by have := j.isLt; omega⟩) ?_ ?_).trans rfl
      · rfl
      · intro d hd
        match d with
        | ⟨0, _⟩ => rfl
        | ⟨1, _⟩ => exact absurd rfl hd
      · show 192 + (j.val - 192) = j.val
        omega

end Cert.Gnn

end
-- ==== Proof.Region1.lean ====
/-
  What the second tiled kernel leaves in its output array, as a whole-array function of the arrays it finds
  when it is entered: the head `max ((self ‖ conv1 ‖ agg2 · W2) · Wh1 + bh1) 0 · Wh2 + bh2`, row by row.
-/
import proofs.«134644_j5471788335183_1_alg».proof.Proof.Gen.KernelIdeal.Frame
import proofs.«134644_j5471788335183_1_alg».proof.Proof.Spec
import proofs.«134644_j5471788335183_1_alg».proof.Proof.LibDot2
import proofs.«134644_j5471788335183_1_alg».proof.Proof.Cat
import Idealize.ShloMosaic.Lib.Pipeline.Value
import Idealize.ShloMosaic.Lib.ValueLayout

set_option maxRecDepth 16384

noncomputable section

namespace Cert.KernelIdeal.R1

open Cert.KernelIdeal Cert.KernelIdeal.Gen Cert.Gnn
open Idealize.ShloMosaic Idealize.ShloMosaic.TcCoe Idealize.SL.Sem Idealize.ShloMosaic.ValueIdx
open Idealize.ShloMosaic.Pipeline (Dat)

/-! ## The kernel's intermediate blocks, named -/

/-- The contraction of a 5000 × 128 block with a 128 × 64 matrix is the plain matrix product's. -/
theorem dims_128_64 : dot_S5000x128_S128x64_S5000x64_1_0_0_1_n_n
    = Dot2.mmDims 5000 128 64 Facts₀.dot_S5000x128_S128x64_S5000x64_1_0_0_1_n_n_wf := rfl

/-- The contraction of a 5000 × 256 block with a 256 × 128 matrix is the plain matrix product's. -/
theorem dims_256_128 : dot_S5000x256_S256x128_S5000x128_1_0_0_1_n_n
    = Dot2.mmDims 5000 256 128 Facts₀.dot_S5000x256_S256x128_S5000x128_1_0_0_1_n_n_wf := rfl

/-- A 5000 × 128 block times a 128 × 64 matrix, accumulated into zero. -/
def mm64 (h : FVec Ideal S5000x128 .f32) (W : Vec Ideal S128x64 .f32) : FVec Ideal S5000x64 .f32 :=
  matmul dot_S5000x128_S128x64_S5000x64_1_0_0_1_n_n none
    (truncf .bf16 h Facts₀.bitsLt_bf16_f32) (truncf .bf16 W Facts₀.bitsLt_bf16_f32)
    (constant S5000x64 .f32 0x00000000#32)

/-- A 5000 × 256 block times a 256 × 128 matrix, accumulated into zero. -/
def mm128 (h : FVec Ideal S5000x256 .f32) (W : Vec Ideal S256x128 .f32) : FVec Ideal S5000x128 .f32 :=
  matmul dot_S5000x256_S256x128_S5000x128_1_0_0_1_n_n none
    (truncf .bf16 h Facts₀.bitsLt_bf16_f32) (truncf .bf16 W Facts₀.bitsLt_bf16_f32)
    (constant S5000x128 .f32 0x00000000#32)

/-- Row `p` of `h · W` is the row `p` of `h` times `W`. -/
theorem mm64_apply (h : FVec Ideal S5000x128 .f32) (W : Vec Ideal S128x64 .f32) (p : Fin 5000) (q : Fin 64) :
    mm64 h W (ix2 p q) = vecmat (rowOf h p) W q := by
  unfold mm64
  rw [dims_128_64]
  exact Dot2.matmul_zero_mm_apply _ none _ _ p q

/-- Row `p` of `h · W` is the row `p` of `h` times `W`. -/
theorem mm128_apply (h : FVec Ideal S5000x256 .f32) (W : Vec Ideal S256x128 .f32) (p : Fin 5000) (q : Fin 128) :
    mm128 h W (ix2 p q) = vecmat (rowOf h p) W q := by
  unfold mm128
  rw [dims_256_128]
  exact Dot2.matmul_zero_mm_apply _ none _ _ p q

/-- The joined block: own paths, first convolutions, and the second neighbourhood sums times `W2`. -/
def catBlk (x0 : Vec Ideal S5000x128 .f32) (x3 : Vec Ideal S128x64 .f32) (x6 : Vec Ideal S5000x64 .f32)
    (x8 : Vec Ideal S5000x128 .f32) : FVec Ideal S5000x256 .f32 :=
  concatenate S5000x256 1 [⟨S5000x64, x6⟩, ⟨S5000x128, x8⟩, ⟨S5000x64, mm64 x0 x3⟩]
    Facts₀.concatenates_S5000x64_S5000x128_S5000x64_S5000x256_d1

/-- Row `p` of the joined block is the three rows laid end to end. -/
theorem catBlk_apply (x0 : Vec Ideal S5000x128 .f32) (x3 : Vec Ideal S128x64 .f32) (x6 : Vec Ideal S5000x64 .f32)
    (x8 : Vec Ideal S5000x128 .f32) (p : Fin 5000) (j : Fin 256) :
    catBlk x0 x3 x6 x8 (ix2 p j)
      = cat3 (rowOf x6 p) (rowOf x8 p) (fun q => vecmat (rowOf x0 p) x3 q) j := by
  unfold catBlk
  refine (concat3_apply x6 x8 (mm64 x0 x3) _ p j).trans ?_
  rw [show rowOf (mm64 x0 x3) p = fun q => vecmat (rowOf x0 p) x3 q from
    funext fun q => mm64_apply x0 x3 p q]

/-- The hidden block of the head. -/
def hidBlk (x0 : Vec Ideal S5000x128 .f32) (x3 : Vec Ideal S128x64 .f32) (x6 : Vec Ideal S5000x64 .f32)
    (x8 : Vec Ideal S5000x128 .f32) (x12 : Vec Ideal S256x128 .f32) (x15 : Vec Ideal S1x128 .f32) :
    FVec Ideal S5000x128 .f32 :=
  maximumf (addf (mm128 (catBlk x0 x3 x6 x8) x12)
      (broadcastTo S5000x128 x15 Facts₀.broadcasts_S1x128_S5000x128))
    (broadcast S5000x128 (Scalar.ofBits .f32 0x00000000#32))

/-- Row `p` of the hidden block is the head's hidden row of node `p`'s rows. -/
theorem hidBlk_apply (x0 : Vec Ideal S5000x128 .f32) (x3 : Vec Ideal S128x64 .f32) (x6 : Vec Ideal S5000x64 .f32)
    (x8 : Vec Ideal S5000x128 .f32) (x12 : Vec Ideal S256x128 .f32) (x15 : Vec Ideal S1x128 .f32)
    (p : Fin 5000) (k : Fin 128) :
    hidBlk x0 x3 x6 x8 x12 x15 (ix2 p k)
      = headHidRow (rowOf x6 p) (rowOf x8 p) (rowOf x0 p) x3 x12 (rowvec x15) k := by
  unfold hidBlk
  rw [maximumf_apply, addf_apply, broadcast_apply, mm128_apply, broadcastTo_1b_ab_apply]
  rw [show rowOf (catBlk x0 x3 x6 x8) p
      = cat3 (rowOf x6 p) (rowOf x8 p) (fun q => vecmat (rowOf x0 p) x3 q) from
    funext fun j => catBlk_apply x0 x3 x6 x8 p j]
  rfl

/-- The stored block is the hidden block times `Wh2`, plus the bias row. -/
theorem pay_eq (x0 : Vec Ideal S5000x128 .f32) (x3 : Vec Ideal S128x64 .f32) (x6 : Vec Ideal S5000x64 .f32)
    (x8 : Vec Ideal S5000x128 .f32) (x12 : Vec Ideal S256x128 .f32) (x15 : Vec Ideal S1x128 .f32)
    (x22 : Vec Ideal S128x64 .f32) (x25 : Vec Ideal S1x64 .f32) :
    k1_pay1 x0 x3 x6 x8 x12 x15 x22 x25
      = addf (mm64 (hidBlk x0 x3 x6 x8 x12 x15) x22)
          (broadcastTo S5000x64 x25 Facts₀.broadcasts_S1x64_S5000x64) := by
  unfold k1_pay1
  simp only [shapeCast_self]
  rw [shapeCast_self x0, shapeCast_self x6, shapeCast_self x8]
  rfl

/-- THE STORED BLOCK AT AN ENTRY: row `p` of it is the head of node `p`'s rows. -/
theorem pay_apply (x0 : Vec Ideal S5000x128 .f32) (x3 : Vec Ideal S128x64 .f32) (x6 : Vec Ideal S5000x64 .f32)
    (x8 : Vec Ideal S5000x128 .f32) (x12 : Vec Ideal S256x128 .f32) (x15 : Vec Ideal S1x128 .f32)
    (x22 : Vec Ideal S128x64 .f32) (x25 : Vec Ideal S1x64 .f32) (p : Fin 5000) (q : Fin 64) :
    k1_pay1 x0 x3 x6 x8 x12 x15 x22 x25 (ix2 p q)
      = headRow (rowOf x6 p) (rowOf x8 p) (rowOf x0 p) x3 x12 (rowvec x15) x22 (rowvec x25) q := by
  rw [pay_eq, addf_apply, mm64_apply, broadcastTo_1b_ab_apply]
  rw [show rowOf (hidBlk x0 x3 x6 x8 x12 x15) p
      = headHidRow (rowOf x6 p) (rowOf x8 p) (rowOf x0 p) x3 x12 (rowvec x15) from
    funext fun k => hidBlk_apply x0 x3 x6 x8 x12 x15 p k]
  rfl

/-! ## The index maps, decided over the grid -/

theorem zeros2 : (![0, 0] : Fin 2 → Nat) = fun _ => 0 := funext fun a => by fin_cases a <;> rfl

/-- The three row-tiled inputs move with the output's row tile and sit at column tile 0; the weights and bias rows
    sit at tile (0, 0); the output's row tile is one of the ten and its column tile is 0. -/
theorem idx_facts : ∀ t : Fin cfg1.N,
      win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) ≤ 9 ∧ win1_8.index t (1 : Fin 2) = 0 :=
  (by decide +kernel : ∀ t : Fin grid1.N, _)

/-- Every one of the ten row tiles is some point's. -/
theorem idx_onto : ∀ q : Fin 10, ∃ t : Fin cfg1.N, win1_8.index t = ![q.val, 0] :=
  (by decide +kernel : ∀ q : Fin 10, ∃ t : Fin grid1.N, win1_8.index t = ![q.val, 0])

/-! ## The blocks the body reads, off the arrays as entered -/

variable (V : (c : Dev nD) → (b : Ref sig .tc) → Buf (Elt Ideal) ((c : Thread nD τ).loc b))

/-- A weight or bias window's block is its whole array, at every point. -/
theorem blk3 (c : Dev nD) (t : Fin cfg1.N) : (iblk1 V c 3 t : Vec Ideal S128x64 .f32) = V c main_arg5 := by
  obtain ⟨-, -, -, -, -, -, e0, e1, -⟩ := idx_facts t
  funext y
  show V c main_arg5 (((cfg1.win 3).blk t).view.emb y) = V c main_arg5 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

theorem blk4 (c : Dev nD) (t : Fin cfg1.N) : (iblk1 V c 4 t : Vec Ideal S256x128 .f32) = V c main_arg10 := by
  obtain ⟨-, -, -, -, -, -, -, -, e0, e1, -⟩ := idx_facts t
  funext y
  show V c main_arg10 (((cfg1.win 4).blk t).view.emb y) = V c main_arg10 y
  refine congrArg _ ?_
  funext a; apply Fin.ext
  match a with
  | ⟨0, _⟩ => show win1_4.index t (0 : Fin 2) * 256 + 1 * (y 0).val = (y 0).val; omega
  | ⟨1, _⟩ => show win1_4.index t (1 : Fin 2) * 128 + 1 * (y 1).val = (y 1).val; omega

theorem blk5 (c : Dev nD) (t : Fin cfg1.N) : (iblk1 V c 5 t : Vec Ideal S1x128 .f32) = V c main_v15 := by
  obtain ⟨-, -, -, -, -, -, -, -, -, -, e0, e1, -⟩ := idx_facts t
  funext y
  show V c main_v15 (((cfg1.win 5).blk t).view.emb y) = V c main_v15 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blk6 (c : Dev nD) (t : Fin cfg1.N) : (iblk1 V c 6 t : Vec Ideal S128x64 .f32) = V c main_arg12 := by
  obtain ⟨-, -, -, -, -, -, -, -, -, -, -, -, e0, e1, -⟩ := idx_facts t
  funext y
  show V c main_arg12 (((cfg1.win 6).blk t).view.emb y) = V c main_arg12 y
  refine congrArg _ ?_
  funext a; apply Fin.ext
  match a with
  | ⟨0, _⟩ => show win1_6.index t (0 : Fin 2) * 128 + 1 * (y 0).val = (y 0).val; omega
  | ⟨1, _⟩ => show win1_6.index t (1 : Fin 2) * 64 + 1 * (y 1).val = (y 1).val; omega

theorem blk7 (c : Dev nD) (t : Fin cfg1.N) : (iblk1 V c 7 t : Vec Ideal S1x64 .f32) = V c main_v16 := by
  obtain ⟨-, -, -, -, -, -, -, -, -, -, -, -, -, -, e0, e1, -⟩ := idx_facts t
  funext y
  show V c main_v16 (((cfg1.win 7).blk t).view.emb y) = V c main_v16 y
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- Row `p` of a row-tiled input's block at a point is row `tile · 5000 + p` of its array. -/
theorem blk0_row (c : Dev nD) (t : Fin cfg1.N) (p : Fin 5000) (r : Fin 50000)
    (hr : r.val = win1_8.index t (0 : Fin 2) * 5000 + p.val) :
    rowOf (iblk1 V c 0 t : Vec Ideal S5000x64 .f32) p = rowOf (V c main_v17_1) r := by
  obtain ⟨e0, e1, -⟩ := idx_facts t
  funext cc
  show V c main_v17_1 (((cfg1.win 0).blk t).view.emb (ix2 p cc)) = V c main_v17_1 (ix2 r cc)
  refine congrArg _ ?_
  funext a; apply Fin.ext
  match a with
  | ⟨0, _⟩ => show win1_0.index t (0 : Fin 2) * 5000 + 1 * p.val = r.val; omega
  | ⟨1, _⟩ => show win1_0.index t (1 : Fin 2) * 64 + 1 * cc.val = cc.val; omega

theorem blk1_row (c : Dev nD) (t : Fin cfg1.N) (p : Fin 5000) (r : Fin 50000)
    (hr : r.val = win1_8.index t (0 : Fin 2) * 5000 + p.val) :
    rowOf (iblk1 V c 1 t : Vec Ideal S5000x128 .f32) p = rowOf (V c main_v17_0) r := by
  obtain ⟨-, -, e0, e1, -⟩ := idx_facts t
  funext cc
  show V c main_v17_0 (((cfg1.win 1).blk t).view.emb (ix2 p cc)) = V c main_v17_0 (ix2 r cc)
  refine congrArg _ ?_
  funext a; apply Fin.ext
  match a with
  | ⟨0, _⟩ => show win1_1.index t (0 : Fin 2) * 5000 + 1 * p.val = r.val; omega
  | ⟨1, _⟩ => show win1_1.index t (1 : Fin 2) * 128 + 1 * cc.val = cc.val; omega

theorem blk2_row (c : Dev nD) (t : Fin cfg1.N) (p : Fin 5000) (r : Fin 50000)
    (hr : r.val = win1_8.index t (0 : Fin 2) * 5000 + p.val) :
    rowOf (iblk1 V c 2 t : Vec Ideal S5000x128 .f32) p = rowOf (V c main_v30) r := by
  obtain ⟨-, -, -, -, e0, e1, -⟩ := idx_facts t
  funext cc
  show V c main_v30 (((cfg1.win 2).blk t).view.emb (ix2 p cc)) = V c main_v30 (ix2 r cc)
  refine congrArg _ ?_
  funext a; apply Fin.ext
  match a with
  | ⟨0, _⟩ => show win1_2.index t (0 : Fin 2) * 5000 + 1 * p.val = r.val; omega
  | ⟨1, _⟩ => show win1_2.index t (1 : Fin 2) * 128 + 1 * cc.val = cc.val; omega

/-! ## What a point writes back, the cover, and the array after the region -/

/-- WHAT POINT `t` WRITES BACK is block `t` of the head of the arrays as entered. -/
theorem flushed_eq (c : Dev nD) (t : Fin cfg1.N) :
    (dat1 V c).flushed 8 t = ((cfg1.win 8).blk t).view.read (Elt Ideal)
      (headArr (V c main_v17_1) (V c main_v17_0) (V c main_v30) (V c main_arg5) (V c main_arg10)
        (rowvec (V c main_v15)) (V c main_arg12) (rowvec (V c main_v16))) := by
  show (cfg1.win 8).cut (grid1.coords t) ((dat1 V c).after 8 t) = _
  rw [after1_8]
  unfold out1_8
  rw [View.canon_unit_zero zeros2]
  simp only [View.ld_unit_zero (S := S5000x128) zeros2, View.ld_unit_zero (S := S128x64) zeros2,
    View.ld_unit_zero (S := S5000x64) zeros2, View.ld_unit_zero (S := S256x128) zeros2,
    View.ld_unit_zero (S := S1x128) zeros2, View.ld_unit_zero (S := S1x64) zeros2]
  obtain ⟨-, -, -, -, -, -, -, -, -, -, -, -, -, -, -, -, h80, h81⟩ := idx_facts t
  funext y
  obtain ⟨p, q, rfl⟩ : ∃ (p : Fin 5000) (q : Fin 64), y = ix2 p q := ⟨y 0, y 1, eq_ix2 y⟩
  have hr : win1_8.index t (0 : Fin 2) * 5000 + p.val < 50000 := by have := p.isLt; omega
  have hemb : ((cfg1.win 8).blk t).view.emb (ix2 p q)
      = ix2 (⟨win1_8.index t (0 : Fin 2) * 5000 + p.val, hr⟩ : Fin 50000) q := by
    funext a; apply Fin.ext
    match a with
    | ⟨0, _⟩ => show win1_8.index t (0 : Fin 2) * 5000 + 1 * p.val = win1_8.index t (0 : Fin 2) * 5000 + p.val; omega
    | ⟨1, _⟩ => show win1_8.index t (1 : Fin 2) * 64 + 1 * q.val = q.val; omega
  refine (pay_apply _ _ _ _ _ _ _ _ p q).trans ?_
  show _ = headArr (V c main_v17_1) (V c main_v17_0) (V c main_v30) (V c main_arg5) (V c main_arg10)
      (rowvec (V c main_v15)) (V c main_arg12) (rowvec (V c main_v16)) (((cfg1.win 8).blk t).view.emb (ix2 p q))
  rw [hemb, blk3, blk4, blk5, blk6, blk7,
    blk0_row V c t p ⟨win1_8.index t (0 : Fin 2) * 5000 + p.val, hr⟩ rfl,
    blk1_row V c t p ⟨win1_8.index t (0 : Fin 2) * 5000 + p.val, hr⟩ rfl,
    blk2_row V c t p ⟨win1_8.index t (0 : Fin 2) * 5000 + p.val, hr⟩ rfl]
  rfl

/-- An index of the result array is in point `t`'s block iff each coordinate is in the block's range on its axis. -/
theorem mem_blk (t : Fin cfg1.N) (i : S50000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v31).slice (win1_8.rect t)).set ↔ _
  rw [View.set_slice_whole, Rect.mem_set_unit]
  exact Iff.rfl

/-- Every row of the result array is in the block of the point whose row tile is `row / 5000`. -/
theorem cover (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  obtain ⟨t, ht⟩ := idx_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- The result array after the region: `headArr` of the arrays as entered. -/
theorem final1_8 (c : Dev nD) :
    (dat1 V c).arrAt 8 cfg1.N
      = headArr (V c main_v17_1) (V c main_v17_0) (V c main_v30) (V c main_arg5) (V c main_arg10)
          (rowvec (V c main_v15)) (V c main_arg12) (rowvec (V c main_v16)) :=
  (dat1 V c).arrAt_eq_of_cover 8 _ (fun t _ => flushed_eq V c t) cover

end Cert.KernelIdeal.R1

end
-- ==== Proof.KAgg.lean ====
/-
  The sparse aggregation as the kernel's host program states it, named once.
-/
import proofs.«134644_j5471788335183_1_alg».proof.Proof.Gen.KernelIdeal

noncomputable section

namespace Cert.KernelIdeal.KAgg

open Cert.KernelIdeal Cert.KernelIdeal.Gen Idealize.ShloMosaic

/-- The sparse aggregation both layers use, as the host computes it: every edge's source index is wrapped into
    range, the source's row is fetched and scaled by the edge weight, and the scaled rows are summed into the
    rows their destination indices name, starting from zero.  Kept as ONE function of the array `x` it
    aggregates: nothing in this certificate looks inside it. -/
def agg {F : FTy → Type} [FloatOps F] (src dst : (⟨S1600000, .i32⟩ : BufTy).Contents (Elt F))
    (w : (⟨S1600000, .f32⟩ : BufTy).Contents (Elt F)) (x : (⟨S50000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 w))
      (Host.gather gather_S50000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))

end Cert.KernelIdeal.KAgg

end
-- ==== Proof.Chain.lean ====
/-
  The kernel program's result array, walked back from the last segment boundary to the launch memory: the
  second tiled kernel's output is the head of what it finds; of those arrays the own paths and the first
  convolutions are the first tiled kernel's outputs, the second neighbourhood sum is the host's aggregation
  of the first convolutions, and everything else is an argument (or a bias argument laid out as one row).
-/
import proofs.«134644_j5471788335183_1_alg».proof.Proof.Region0
import proofs.«134644_j5471788335183_1_alg».proof.Proof.Region1
import proofs.«134644_j5471788335183_1_alg».proof.Proof.KAgg
import Idealize.ShloMosaic.Lib.StableHlo.Run

set_option maxRecDepth 16384

noncomputable section

namespace Cert.KernelIdeal.Chain

open Cert.KernelIdeal Cert.KernelIdeal.Gen Cert.Gnn
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- A length-`k` array laid out as one row and read back as a length-`k` array is itself. -/
theorem rowvec_shapeCast {k : Nat} (x : Vc k) (h : (⟨1, ![k]⟩ : Shape).ShapeCasts ⟨2, ![1, k]⟩) :
    rowvec (shapeCast (⟨2, ![1, k]⟩ : Shape) x h) = x := by
  funext i
  obtain ⟨q, rfl⟩ : ∃ q : Fin k, i = ix1 q := ⟨i 0, eq_ix1 i⟩
  exact shapeCast_a_1a_apply x h 0 q

/-! ## Before the first tiled kernel: the host's first stretch over the launch memory -/

/-- The first neighbourhood sum is the aggregation of the features. -/
theorem entry0_agg1 (c : Dev nD) :
    V1 m ρ c main_v12 = KAgg.agg (m ((c.tc : Thread nD τ).loc main_arg1)) (m ((c.tc : Thread nD τ).loc main_arg2)) (m ((c.tc : Thread nD τ).loc main_arg3)) (m ((c.tc : Thread nD τ).loc main_arg0)) := by
  show StableHlo.after hostOps0 (W0 m ρ c) (Proc.devRef .tc main_v12) = _
  dsimp only [hostOps0]
  after_results_simp
  rfl

/-- The first bias of the own path, as one row. -/
theorem entry0_bm1 (c : Dev nD) : rowvec (V1 m ρ c main_v13) = (m ((c.tc : Thread nD τ).loc main_arg7)) := by
  have e : V1 m ρ c main_v13 = shapeCast S1x128 (m ((c.tc : Thread nD τ).loc main_arg7)) shapeCasts_S128_S1x128 := by
    show StableHlo.after hostOps0 (W0 m ρ c) (Proc.devRef .tc main_v13) = _
    dsimp only [hostOps0]
    after_results
    rfl
  rw [e]; exact rowvec_shapeCast _ _

/-- The second bias of the own path, as one row. -/
theorem entry0_bm2 (c : Dev nD) : rowvec (V1 m ρ c main_v14) = (m ((c.tc : Thread nD τ).loc main_arg9)) := by
  have e : V1 m ρ c main_v14 = shapeCast S1x64 (m ((c.tc : Thread nD τ).loc main_arg9)) shapeCasts_S64_S1x64 := by
    show StableHlo.after hostOps0 (W0 m ρ c) (Proc.devRef .tc main_v14) = _
    dsimp only [hostOps0]
    after_results
    rfl
  rw [e]; exact rowvec_shapeCast _ _

/-- An argument is still as launched when the first tiled kernel is entered. -/
theorem entry0_arg0 (c : Dev nD) : V1 m ρ c main_arg0 = (m ((c.tc : Thread nD τ).loc main_arg0)) := by
  show StableHlo.after hostOps0 (W0 m ρ c) (Proc.devRef .tc main_arg0) = _
  dsimp only [hostOps0]; after_results
theorem entry0_arg4 (c : Dev nD) : V1 m ρ c main_arg4 = (m ((c.tc : Thread nD τ).loc main_arg4)) := by
  show StableHlo.after hostOps0 (W0 m ρ c) (Proc.devRef .tc main_arg4) = _
  dsimp only [hostOps0]; after_results
theorem entry0_arg6 (c : Dev nD) : V1 m ρ c main_arg6 = (m ((c.tc : Thread nD τ).loc main_arg6)) := by
  show StableHlo.after hostOps0 (W0 m ρ c) (Proc.devRef .tc main_arg6) = _
  dsimp only [hostOps0]; after_results
theorem entry0_arg8 (c : Dev nD) : V1 m ρ c main_arg8 = (m ((c.tc : Thread nD τ).loc main_arg8)) := by
  show StableHlo.after hostOps0 (W0 m ρ c) (Proc.devRef .tc main_arg8) = _
  dsimp only [hostOps0]; after_results

/-- The head's biases, as one row each, are laid out by the first stretch too. -/
theorem stretch0_bh1 (c : Dev nD) : W1 m ρ c (Proc.devRef .tc main_v15) = shapeCast S1x128 (m ((c.tc : Thread nD τ).loc main_arg11)) shapeCasts_S128_S1x128 := by
  show StableHlo.after hostOps0 (W0 m ρ c) (Proc.devRef .tc main_v15) = _
  dsimp only [hostOps0]
  after_results
  rfl
theorem stretch0_bh2 (c : Dev nD) : W1 m ρ c (Proc.devRef .tc main_v16) = shapeCast S1x64 (m ((c.tc : Thread nD τ).loc main_arg13)) shapeCasts_S64_S1x64 := by
  show StableHlo.after hostOps0 (W0 m ρ c) (Proc.devRef .tc main_v16) = _
  dsimp only [hostOps0]
  after_results
  rfl

/-- The arguments the later segments read are as launched after the first stretch. -/
theorem stretch0_arg1 (c : Dev nD) : W1 m ρ c (Proc.devRef .tc main_arg1) = (m ((c.tc : Thread nD τ).loc main_arg1)) := by
  show StableHlo.after hostOps0 (W0 m ρ c) (Proc.devRef .tc main_arg1) = _
  dsimp only [hostOps0]; after_results
theorem stretch0_arg2 (c : Dev nD) : W1 m ρ c (Proc.devRef .tc main_arg2) = (m ((c.tc : Thread nD τ).loc main_arg2)) := by
  show StableHlo.after hostOps0 (W0 m ρ c) (Proc.devRef .tc main_arg2) = _
  dsimp only [hostOps0]; after_results
theorem stretch0_arg3 (c : Dev nD) : W1 m ρ c (Proc.devRef .tc main_arg3) = (m ((c.tc : Thread nD τ).loc main_arg3)) := by
  show StableHlo.after hostOps0 (W0 m ρ c) (Proc.devRef .tc main_arg3) = _
  dsimp only [hostOps0]; after_results
theorem stretch0_arg5 (c : Dev nD) : W1 m ρ c (Proc.devRef .tc main_arg5) = (m ((c.tc : Thread nD τ).loc main_arg5)) := by
  show StableHlo.after hostOps0 (W0 m ρ c) (Proc.devRef .tc main_arg5) = _
  dsimp only [hostOps0]; after_results
theorem stretch0_arg10 (c : Dev nD) : W1 m ρ c (Proc.devRef .tc main_arg10) = (m ((c.tc : Thread nD τ).loc main_arg10)) := by
  show StableHlo.after hostOps0 (W0 m ρ c) (Proc.devRef .tc main_arg10) = _
  dsimp only [hostOps0]; after_results
theorem stretch0_arg12 (c : Dev nD) : W1 m ρ c (Proc.devRef .tc main_arg12) = (m ((c.tc : Thread nD τ).loc main_arg12)) := by
  show StableHlo.after hostOps0 (W0 m ρ c) (Proc.devRef .tc main_arg12) = _
  dsimp only [hostOps0]; after_results

/-! ## After the first tiled kernel -/

/-- The first convolutions, from the arguments. -/
theorem exit0_conv1 (c : Dev nD) :
    W2 m ρ c (Proc.devRef .tc main_v17_0) = conv1Arr (KAgg.agg (m ((c.tc : Thread nD τ).loc main_arg1)) (m ((c.tc : Thread nD τ).loc main_arg2)) (m ((c.tc : Thread nD τ).loc main_arg3)) (m ((c.tc : Thread nD τ).loc main_arg0))) (m ((c.tc : Thread nD τ).loc main_arg4)) := by
  rw [show W2 m ρ c (Proc.devRef .tc main_v17_0) = (dat0 (V1 m ρ) c).arrAt 7 cfg0.N from W2_arr m ρ c 7,
    R0.final0_7 (V1 m ρ) c, entry0_agg1, entry0_arg4]

/-- The own paths, from the arguments. -/
theorem exit0_self (c : Dev nD) :
    W2 m ρ c (Proc.devRef .tc main_v17_1) = selfArr (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) := by
  rw [show W2 m ρ c (Proc.devRef .tc main_v17_1) = (dat0 (V1 m ρ) c).arrAt 8 cfg0.N from W2_arr m ρ c 8,
    R0.final0_8 (V1 m ρ) c, entry0_arg0, entry0_arg6, entry0_bm1, entry0_arg8, entry0_bm2]

/-- What the first tiled kernel does not stage it leaves alone. -/
theorem exit0_arg1 (c : Dev nD) : W2 m ρ c (Proc.devRef .tc main_arg1) = (m ((c.tc : Thread nD τ).loc main_arg1)) :=
  (W2_of_ne m ρ c main_arg1 (by decide)).trans (stretch0_arg1 m ρ c)
theorem exit0_arg2 (c : Dev nD) : W2 m ρ c (Proc.devRef .tc main_arg2) = (m ((c.tc : Thread nD τ).loc main_arg2)) :=
  (W2_of_ne m ρ c main_arg2 (by decide)).trans (stretch0_arg2 m ρ c)
theorem exit0_arg3 (c : Dev nD) : W2 m ρ c (Proc.devRef .tc main_arg3) = (m ((c.tc : Thread nD τ).loc main_arg3)) :=
  (W2_of_ne m ρ c main_arg3 (by decide)).trans (stretch0_arg3 m ρ c)
theorem exit0_arg5 (c : Dev nD) : W2 m ρ c (Proc.devRef .tc main_arg5) = (m ((c.tc : Thread nD τ).loc main_arg5)) :=
  (W2_of_ne m ρ c main_arg5 (by decide)).trans (stretch0_arg5 m ρ c)
theorem exit0_arg10 (c : Dev nD) : W2 m ρ c (Proc.devRef .tc main_arg10) = (m ((c.tc : Thread nD τ).loc main_arg10)) :=
  (W2_of_ne m ρ c main_arg10 (by decide)).trans (stretch0_arg10 m ρ c)
theorem exit0_arg12 (c : Dev nD) : W2 m ρ c (Proc.devRef .tc main_arg12) = (m ((c.tc : Thread nD τ).loc main_arg12)) :=
  (W2_of_ne m ρ c main_arg12 (by decide)).trans (stretch0_arg12 m ρ c)
theorem exit0_bh1 (c : Dev nD) : W2 m ρ c (Proc.devRef .tc main_v15) = shapeCast S1x128 (m ((c.tc : Thread nD τ).loc main_arg11)) shapeCasts_S128_S1x128 :=
  (W2_of_ne m ρ c main_v15 (by decide)).trans (stretch0_bh1 m ρ c)
theorem exit0_bh2 (c : Dev nD) : W2 m ρ c (Proc.devRef .tc main_v16) = shapeCast S1x64 (m ((c.tc : Thread nD τ).loc main_arg13)) shapeCasts_S64_S1x64 :=
  (W2_of_ne m ρ c main_v16 (by decide)).trans (stretch0_bh2 m ρ c)

/-! ## Before the second tiled kernel: the host's second stretch -/

/-- The second neighbourhood sum is the aggregation of the first convolutions. -/
theorem entry1_agg2 (c : Dev nD) :
    V3 m ρ c main_v30 = (KAgg.agg (m ((c.tc : Thread nD τ).loc main_arg1)) (m ((c.tc : Thread nD τ).loc main_arg2)) (m ((c.tc : Thread nD τ).loc main_arg3)) (conv1Arr (KAgg.agg (m ((c.tc : Thread nD τ).loc main_arg1)) (m ((c.tc : Thread nD τ).loc main_arg2)) (m ((c.tc : Thread nD τ).loc main_arg3)) (m ((c.tc : Thread nD τ).loc main_arg0))) (m ((c.tc : Thread nD τ).loc main_arg4)))) := by
  have e : V3 m ρ c main_v30 = KAgg.agg (W2 m ρ c (Proc.devRef .tc main_arg1)) (W2 m ρ c (Proc.devRef .tc main_arg2))
      (W2 m ρ c (Proc.devRef .tc main_arg3)) (W2 m ρ c (Proc.devRef .tc main_v17_0)) := by
    show StableHlo.after hostOps1 (W2 m ρ c) (Proc.devRef .tc main_v30) = _
    dsimp only [hostOps1]
    after_results_simp
    rfl
  rw [e, exit0_arg1, exit0_arg2, exit0_arg3, exit0_conv1]

/-- The second stretch writes none of the other arrays the second tiled kernel reads. -/
theorem entry1_v17_1 (c : Dev nD) : V3 m ρ c main_v17_1 = selfArr (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) := by
  have e : V3 m ρ c main_v17_1 = W2 m ρ c (Proc.devRef .tc main_v17_1) := by
    show StableHlo.after hostOps1 (W2 m ρ c) (Proc.devRef .tc main_v17_1) = _
    dsimp only [hostOps1]; after_results
  rw [e, exit0_self]
theorem entry1_v17_0 (c : Dev nD) : V3 m ρ c main_v17_0 = conv1Arr (KAgg.agg (m ((c.tc : Thread nD τ).loc main_arg1)) (m ((c.tc : Thread nD τ).loc main_arg2)) (m ((c.tc : Thread nD τ).loc main_arg3)) (m ((c.tc : Thread nD τ).loc main_arg0))) (m ((c.tc : Thread nD τ).loc main_arg4)) := by
  have e : V3 m ρ c main_v17_0 = W2 m ρ c (Proc.devRef .tc main_v17_0) := by
    show StableHlo.after hostOps1 (W2 m ρ c) (Proc.devRef .tc main_v17_0) = _
    dsimp only [hostOps1]; after_results
  rw [e, exit0_conv1]
theorem entry1_arg5 (c : Dev nD) : V3 m ρ c main_arg5 = (m ((c.tc : Thread nD τ).loc main_arg5)) := by
  have e : V3 m ρ c main_arg5 = W2 m ρ c (Proc.devRef .tc main_arg5) := by
    show StableHlo.after hostOps1 (W2 m ρ c) (Proc.devRef .tc main_arg5) = _
    dsimp only [hostOps1]; after_results
  rw [e, exit0_arg5]
theorem entry1_arg10 (c : Dev nD) : V3 m ρ c main_arg10 = (m ((c.tc : Thread nD τ).loc main_arg10)) := by
  have e : V3 m ρ c main_arg10 = W2 m ρ c (Proc.devRef .tc main_arg10) := by
    show StableHlo.after hostOps1 (W2 m ρ c) (Proc.devRef .tc main_arg10) = _
    dsimp only [hostOps1]; after_results
  rw [e, exit0_arg10]
theorem entry1_arg12 (c : Dev nD) : V3 m ρ c main_arg12 = (m ((c.tc : Thread nD τ).loc main_arg12)) := by
  have e : V3 m ρ c main_arg12 = W2 m ρ c (Proc.devRef .tc main_arg12) := by
    show StableHlo.after hostOps1 (W2 m ρ c) (Proc.devRef .tc main_arg12) = _
    dsimp only [hostOps1]; after_results
  rw [e, exit0_arg12]
theorem entry1_bh1 (c : Dev nD) : rowvec (V3 m ρ c main_v15) = (m ((c.tc : Thread nD τ).loc main_arg11)) := by
  have e : V3 m ρ c main_v15 = W2 m ρ c (Proc.devRef .tc main_v15) := by
    show StableHlo.after hostOps1 (W2 m ρ c) (Proc.devRef .tc main_v15) = _
    dsimp only [hostOps1]; after_results
  rw [e, exit0_bh1]; exact rowvec_shapeCast _ _
theorem entry1_bh2 (c : Dev nD) : rowvec (V3 m ρ c main_v16) = (m ((c.tc : Thread nD τ).loc main_arg13)) := by
  have e : V3 m ρ c main_v16 = W2 m ρ c (Proc.devRef .tc main_v16) := by
    show StableHlo.after hostOps1 (W2 m ρ c) (Proc.devRef .tc main_v16) = _
    dsimp only [hostOps1]; after_results
  rw [e, exit0_bh2]; exact rowvec_shapeCast _ _

/-! ## The result -/

/-- The result buffer at the last boundary is `net` of the arguments, over the kernel program's aggregation. -/
theorem result_eq (c : Dev nD) :
    W4 m ρ c (Proc.devRef .tc main_v31)
      = net (KAgg.agg (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [show W4 m ρ c (Proc.devRef .tc main_v31) = (dat1 (V3 m ρ) c).arrAt 8 cfg1.N from W4_arr m ρ c 8,
    R1.final1_8 (V3 m ρ) c, entry1_v17_1, entry1_v17_0, entry1_agg2, entry1_arg5, entry1_arg10, entry1_bh1, entry1_arg12,
    entry1_bh2]
  rfl

end Cert.KernelIdeal.Chain

end
-- ==== Proof.RAgg.lean ====
/-
  The sparse aggregation as the reference states it, named once.
-/
import proofs.«134644_j5471788335183_1_alg».proof.Proof.Gen.ReferenceIdeal

noncomputable section

namespace Cert.ReferenceIdeal.RAgg

open Cert.ReferenceIdeal Cert.ReferenceIdeal.Gen Idealize.ShloMosaic

/-- The sparse aggregation both layers use, as the host computes it: every edge's source index is wrapped into
    range, the source's row is fetched and scaled by the edge weight, and the scaled rows are summed into the
    rows their destination indices name, starting from zero.  Kept as ONE function of the array `x` it
    aggregates: nothing in this certificate looks inside it. -/
def agg {F : FTy → Type} [FloatOps F] (src dst : (⟨S1600000, .i32⟩ : BufTy).Contents (Elt F))
    (w : (⟨S1600000, .f32⟩ : BufTy).Contents (Elt F)) (x : (⟨S50000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 w))
      (Host.gather gather_S50000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))

end Cert.ReferenceIdeal.RAgg

end
-- ==== Proof.RefValue.lean ====
/-
  The reference's result, read index by index, is the network of the specification over the reference's own
  sparse aggregation: every dense layer is a row-times-matrix product plus a bias row, every rectifier a
  maximum with zero, and the join of the three feature groups a concatenation of rows.
-/
import proofs.«134644_j5471788335183_1_alg».proof.Proof.Gen.ReferenceIdeal.Read
import proofs.«134644_j5471788335183_1_alg».proof.Proof.Spec
import proofs.«134644_j5471788335183_1_alg».proof.Proof.Cat
import proofs.«134644_j5471788335183_1_alg».proof.Proof.LibDot2
import proofs.«134644_j5471788335183_1_alg».proof.Proof.RAgg

set_option maxRecDepth 16384

noncomputable section

namespace Cert.ReferenceIdeal.RefValue

open Cert.ReferenceIdeal Cert.ReferenceIdeal.Gen Cert.Gnn
open Idealize.ShloMosaic Idealize.ShloMosaic.TcCoe Idealize.SL.Sem Idealize.ShloMosaic.ValueIdx

open Cert.ReferenceIdeal.Read

/-- Entry `q` of row `p` is entry `(p, q)`. -/
theorem rowOf_apply {n k : Nat} (X : Mat n k) (p : Fin n) (q : Fin k) : rowOf X p q = X (ix2 p q) := rfl

/-! ## The three matrix products, read at an entry -/

/-- A product of a 50000 x 128 array by a 128 x 128 matrix, at `(p, q)`: row `p` times the matrix, at column `q`. -/
theorem dotA_at (l : FVec Ideal S50000x128 .f32) (r : FVec Ideal S128x128 .f32) (p : Fin 50000) (q : Fin 128) :
    Host.dotGeneral (F := Ideal) dot_S50000x128_S128x128_S50000x128_1_0_0_1_n_n none l r (ix2 p q)
      = vecmat (rowOf l p) r q :=
  Dot2.host_dotGeneral_mm_apply dot_S50000x128_S128x128_S50000x128_1_0_0_1_n_n_wf none l r p q

/-- A product of a 50000 x 128 array by a 128 x 64 matrix, at `(p, q)`. -/
theorem dotB_at (l : FVec Ideal S50000x128 .f32) (r : FVec Ideal S128x64 .f32) (p : Fin 50000) (q : Fin 64) :
    Host.dotGeneral (F := Ideal) dot_S50000x128_S128x64_S50000x64_1_0_0_1_n_n none l r (ix2 p q)
      = vecmat (rowOf l p) r q :=
  Dot2.host_dotGeneral_mm_apply dot_S50000x128_S128x64_S50000x64_1_0_0_1_n_n_wf none l r p q

/-- A product of a 50000 x 256 array by a 256 x 128 matrix, at `(p, q)`. -/
theorem dotC_at (l : FVec Ideal S50000x256 .f32) (r : FVec Ideal S256x128 .f32) (p : Fin 50000) (q : Fin 128) :
    Host.dotGeneral (F := Ideal) dot_S50000x256_S256x128_S50000x128_1_0_0_1_n_n none l r (ix2 p q)
      = vecmat (rowOf l p) r q :=
  Dot2.host_dotGeneral_mm_apply dot_S50000x256_S256x128_S50000x128_1_0_0_1_n_n_wf none l r p q

/-! ## The rectifiers' zero arrays and the bias rows, read at an entry -/

theorem zero0_at (i : S50000x128.Idx) : val_main_call0_v0 (F := Ideal) i = Gnn.zero := by
  rw [val_main_call0_v0_apply]; rfl

theorem zero1_at (i : S50000x128.Idx) : val_main_call1_v0 (F := Ideal) i = Gnn.zero := by
  rw [val_main_call1_v0_apply]; rfl

theorem zero2_at (i : S50000x128.Idx) : val_main_call2_v0 (F := Ideal) i = Gnn.zero := by
  rw [val_main_call2_v0_apply]; rfl

section Stages

variable (x0 : (⟨S50000x128, .f32⟩ : BufTy).Contents (Elt Ideal))
  (x1 x2 : (⟨S1600000, .i32⟩ : BufTy).Contents (Elt Ideal))
  (x3 : (⟨S1600000, .f32⟩ : BufTy).Contents (Elt Ideal))
  (x4 : (⟨S128x128, .f32⟩ : BufTy).Contents (Elt Ideal))
  (x5 : (⟨S128x64, .f32⟩ : BufTy).Contents (Elt Ideal))
  (x6 : (⟨S128x128, .f32⟩ : BufTy).Contents (Elt Ideal))
  (x7 : (⟨S128, .f32⟩ : BufTy).Contents (Elt Ideal))
  (x8 : (⟨S128x64, .f32⟩ : BufTy).Contents (Elt Ideal))
  (x9 : (⟨S64, .f32⟩ : BufTy).Contents (Elt Ideal))
  (x10 : (⟨S256x128, .f32⟩ : BufTy).Contents (Elt Ideal))
  (x11 : (⟨S128, .f32⟩ : BufTy).Contents (Elt Ideal))
  (x12 : (⟨S128x64, .f32⟩ : BufTy).Contents (Elt Ideal))
  (x13 : (⟨S64, .f32⟩ : BufTy).Contents (Elt Ideal))

/-- A bias of length 128 broadcast to one row and then to every row, at `(p, q)`: its entry `q`. -/
theorem bias31_at (p : Fin 50000) (q : Fin 128) : val_main_v31 (F := Ideal) x7 (ix2 p q) = x7 (ix1 q) := by
  rw [val_main_v31_apply, val_main_v30_apply]
  exact congrArg x7 (funext fun a => by match a with | ⟨0, _⟩ => rfl)

theorem bias36_at (p : Fin 50000) (q : Fin 64) : val_main_v36 (F := Ideal) x9 (ix2 p q) = x9 (ix1 q) := by
  rw [val_main_v36_apply, val_main_v35_apply]
  exact congrArg x9 (funext fun a => by match a with | ⟨0, _⟩ => rfl)

theorem bias41_at (p : Fin 50000) (q : Fin 128) : val_main_v41 (F := Ideal) x11 (ix2 p q) = x11 (ix1 q) := by
  rw [val_main_v41_apply, val_main_v40_apply]
  exact congrArg x11 (funext fun a => by match a with | ⟨0, _⟩ => rfl)

theorem bias46_at (p : Fin 50000) (q : Fin 64) : val_main_v46 (F := Ideal) x13 (ix2 p q) = x13 (ix1 q) := by
  rw [val_main_v46_apply, val_main_v45_apply]
  exact congrArg x13 (funext fun a => by match a with | ⟨0, _⟩ => rfl)

/-! ## The first convolution -/

/-- The first scatter's result is the aggregation of the features. -/
theorem v12_eq : val_main_v12 (F := Ideal) x0 x1 x2 x3 = RAgg.agg x1 x2 x3 x0 := rfl

theorem v13_at (p : Fin 50000) (q : Fin 128) :
    val_main_v13 (F := Ideal) x0 x1 x2 x3 x4 (ix2 p q) = vecmat (rowOf (RAgg.agg x1 x2 x3 x0) p) x4 q := by
  unfold val_main_v13
  rw [v12_eq]
  exact dotA_at _ x4 p q

theorem v14_at (p : Fin 50000) (q : Fin 128) :
    val_main_v14 (F := Ideal) x0 x1 x2 x3 x4 (ix2 p q) = conv1Row (rowOf (RAgg.agg x1 x2 x3 x0) p) x4 q := by
  rw [val_main_v14_apply, v13_at, zero0_at]
  rfl

/-- The first convolution's array is `conv1Arr` of the aggregated features. -/
theorem v14_eq : val_main_v14 (F := Ideal) x0 x1 x2 x3 x4 = conv1Arr (RAgg.agg x1 x2 x3 x0) x4 := by
  funext i
  obtain ⟨p, q, rfl⟩ : ∃ (p : Fin 50000) (q : Fin 128), i = ix2 p q := ⟨i 0, i 1, eq_ix2 i⟩
  exact v14_at x0 x1 x2 x3 x4 p q

/-! ## The second aggregation and its product -/

/-- The second scatter's result is the aggregation of the first convolution. -/
theorem v27_eq : val_main_v27 (F := Ideal) x0 x1 x2 x3 x4
    = RAgg.agg x1 x2 x3 (conv1Arr (RAgg.agg x1 x2 x3 x0) x4) := by
  rw [← v14_eq]
  rfl

theorem v28_at (p : Fin 50000) (q : Fin 64) :
    val_main_v28 (F := Ideal) x0 x1 x2 x3 x4 x5 (ix2 p q)
      = vecmat (rowOf (RAgg.agg x1 x2 x3 (conv1Arr (RAgg.agg x1 x2 x3 x0) x4)) p) x5 q := by
  unfold val_main_v28
  rw [v27_eq]
  exact dotB_at _ x5 p q

theorem v28_row (p : Fin 50000) :
    rowOf (val_main_v28 (F := Ideal) x0 x1 x2 x3 x4 x5) p
      = fun q => vecmat (rowOf (RAgg.agg x1 x2 x3 (conv1Arr (RAgg.agg x1 x2 x3 x0) x4)) p) x5 q := by
  funext q
  rw [rowOf_apply]
  exact v28_at x0 x1 x2 x3 x4 x5 p q

/-! ## The node's own path -/

theorem v29_at (p : Fin 50000) (q : Fin 128) :
    val_main_v29 (F := Ideal) x0 x6 (ix2 p q) = vecmat (rowOf x0 p) x6 q := by
  unfold val_main_v29
  exact dotA_at x0 x6 p q

theorem v33_at (p : Fin 50000) (q : Fin 128) :
    val_main_v33 (F := Ideal) x0 x6 x7 (ix2 p q) = hidRow (rowOf x0 p) x6 x7 q := by
  rw [val_main_v33_apply, val_main_v32_apply, v29_at, bias31_at, zero1_at]
  rfl

theorem v33_row (p : Fin 50000) :
    rowOf (val_main_v33 (F := Ideal) x0 x6 x7) p = hidRow (rowOf x0 p) x6 x7 := by
  funext q
  rw [rowOf_apply]
  exact v33_at x0 x6 x7 p q

theorem v37_at (p : Fin 50000) (q : Fin 64) :
    val_main_v37 (F := Ideal) x0 x6 x7 x8 x9 (ix2 p q) = selfRow (rowOf x0 p) x6 x7 x8 x9 q := by
  rw [val_main_v37_apply, bias36_at]
  unfold val_main_v34
  rw [dotB_at, v33_row]
  rfl

/-- The own-path array is `selfArr` of the features. -/
theorem v37_eq : val_main_v37 (F := Ideal) x0 x6 x7 x8 x9 = selfArr x0 x6 x7 x8 x9 := by
  funext i
  obtain ⟨p, q, rfl⟩ : ∃ (p : Fin 50000) (q : Fin 64), i = ix2 p q := ⟨i 0, i 1, eq_ix2 i⟩
  exact v37_at x0 x6 x7 x8 x9 p q

/-! ## The join and the head -/

/-- Row `p` of the joined array: the own path, the first convolution and the second convolution's product, end to end. -/
theorem v38_row (p : Fin 50000) :
    rowOf (val_main_v38 (F := Ideal) x0 x1 x2 x3 x4 x5 x6 x7 x8 x9) p
      = cat3 (rowOf (selfArr x0 x6 x7 x8 x9) p) (rowOf (conv1Arr (RAgg.agg x1 x2 x3 x0) x4) p)
          (fun q => vecmat (rowOf (RAgg.agg x1 x2 x3 (conv1Arr (RAgg.agg x1 x2 x3 x0) x4)) p) x5 q) := by
  funext j
  rw [rowOf_apply]
  unfold val_main_v38
  rw [v37_eq, v14_eq]
  refine (concat3_apply _ _ _ concatenates_S50000x64_S50000x128_S50000x64_S50000x256_d1 p j).trans ?_
  rw [v28_row]

theorem v43_at (p : Fin 50000) (q : Fin 128) :
    val_main_v43 (F := Ideal) x0 x1 x2 x3 x4 x5 x6 x7 x8 x9 x10 x11 (ix2 p q)
      = headHidRow (rowOf (selfArr x0 x6 x7 x8 x9) p) (rowOf (conv1Arr (RAgg.agg x1 x2 x3 x0) x4) p)
          (rowOf (RAgg.agg x1 x2 x3 (conv1Arr (RAgg.agg x1 x2 x3 x0) x4)) p) x5 x10 x11 q := by
  rw [val_main_v43_apply, val_main_v42_apply, bias41_at, zero2_at]
  unfold val_main_v39
  rw [dotC_at, v38_row]
  rfl

theorem v43_row (p : Fin 50000) :
    rowOf (val_main_v43 (F := Ideal) x0 x1 x2 x3 x4 x5 x6 x7 x8 x9 x10 x11) p
      = headHidRow (rowOf (selfArr x0 x6 x7 x8 x9) p) (rowOf (conv1Arr (RAgg.agg x1 x2 x3 x0) x4) p)
          (rowOf (RAgg.agg x1 x2 x3 (conv1Arr (RAgg.agg x1 x2 x3 x0) x4)) p) x5 x10 x11 := by
  funext q
  rw [rowOf_apply]
  exact v43_at x0 x1 x2 x3 x4 x5 x6 x7 x8 x9 x10 x11 p q

theorem v47_at (p : Fin 50000) (q : Fin 64) :
    val_main_v47 (F := Ideal) x0 x1 x2 x3 x4 x5 x6 x7 x8 x9 x10 x11 x12 x13 (ix2 p q)
      = headRow (rowOf (selfArr x0 x6 x7 x8 x9) p) (rowOf (conv1Arr (RAgg.agg x1 x2 x3 x0) x4) p)
          (rowOf (RAgg.agg x1 x2 x3 (conv1Arr (RAgg.agg x1 x2 x3 x0) x4)) p) x5 x10 x11 x12 x13 q := by
  rw [val_main_v47_apply, bias46_at]
  unfold val_main_v44
  rw [dotB_at, v43_row]
  rfl

end Stages

/-- The reference run's result term is `net` of the arguments, over the reference's aggregation. -/
theorem ref_eq (m : (ℓ : Loc nD τ sig) → Buf (Elt Ideal) ℓ) (c : Dev nD) :
    Cert.ReferenceIdeal.Value.res_main_v47 (F := Ideal) m c
      = net (RAgg.agg (m ((c.tc : Thread nD τ).loc main_arg1)) (m ((c.tc : Thread nD τ).loc main_arg2)) (m ((c.tc : Thread nD τ).loc main_arg3)))
          (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  rw [val_main_v47_eq]
  funext i
  obtain ⟨p, q, rfl⟩ : ∃ (p : Fin 50000) (q : Fin 64), i = ix2 p q := ⟨i 0, i 1, eq_ix2 i⟩
  exact v47_at _ _ _ _ _ _ _ _ _ _ _ _ _ _ p q

end Cert.ReferenceIdeal.RefValue

end
-- ==== Proof.lean ====
/-
  A two-layer graph convolution with a per-node MLP path and an MLP head, its dense part tiled over the nodes in
  two kernels (rows 5000 t … 5000 t + 4999 at grid point t) with the sparse aggregations between them on the
  host, against the same network written with whole-array operations.

  Over the extended reals every change of float format is the identity, a matrix product accumulated into zero
  is the plain sum of products, and the two programs apply the SAME sparse aggregation (index wrap, gather,
  scale, scatter-add); so both results are one function of the arguments: for node p,
      out[p] = max ((self[p] ‖ conv1[p] ‖ agg(conv1)[p] · W2) · Wh1 + bh1) 0 · Wh2 + bh2,
      conv1[p] = max (agg(x)[p] · W1) 0,   self[p] = max (x[p] · Wm1 + bm1) 0 · Wm2 + bm2.
  No law beyond reading each operation at an index is used, so the precondition is never opened.

  The three frames are the generated ones (the reference's is its generated run with the result dropped); the
  idealization rewrote nothing, so `preserves` is trivial; `algebraic` sets the kernel program's run, with
  its result array walked back to the arguments, beside the reference's run read index by index.
-/
import proofs.«134644_j5471788335183_1_alg».proof.Defs
import proofs.«134644_j5471788335183_1_alg».proof.Proof.Gen.Kernel
import proofs.«134644_j5471788335183_1_alg».proof.Proof.Gen.Kernel.Skeleton
import proofs.«134644_j5471788335183_1_alg».proof.Proof.Gen.Kernel.Launch
import proofs.«134644_j5471788335183_1_alg».proof.Proof.Gen.Kernel.Points
import proofs.«134644_j5471788335183_1_alg».proof.Proof.Gen.Kernel.Frame
import proofs.«134644_j5471788335183_1_alg».proof.Proof.Gen.KernelIdeal
import proofs.«134644_j5471788335183_1_alg».proof.Proof.Gen.KernelIdeal.Skeleton
import proofs.«134644_j5471788335183_1_alg».proof.Proof.Gen.KernelIdeal.Launch
import proofs.«134644_j5471788335183_1_alg».proof.Proof.Gen.KernelIdeal.Points
import proofs.«134644_j5471788335183_1_alg».proof.Proof.Gen.KernelIdeal.Frame
import proofs.«134644_j5471788335183_1_alg».proof.Proof.Gen.ReferenceIdeal
import proofs.«134644_j5471788335183_1_alg».proof.Proof.Gen.Pre_finite_inputs
import proofs.«134644_j5471788335183_1_alg».proof.Proof.Gen.ReferenceIdeal.Run
import proofs.«134644_j5471788335183_1_alg».proof.Proof.KernelRun
import proofs.«134644_j5471788335183_1_alg».proof.Proof.Chain
import proofs.«134644_j5471788335183_1_alg».proof.Proof.RefValue
import Idealize.ShloMosaic.Adequacy
import Idealize.ShloMosaic.Init

noncomputable section

namespace Cert.Proof

open Idealize.ShloMosaic Idealize.SL.Sem Cert.Gnn

/-- The two programs state the sparse aggregation with the same operations over the same shapes and
    dimension numbers: one function. -/
theorem agg_eq {F : FTy → Type} [FloatOps F] :
    @Cert.ReferenceIdeal.RAgg.agg F _ = @Cert.KernelIdeal.KAgg.agg F _ := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network of the (agreeing) arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.result_eq m ρ c), (h c).2⟩)
    (Cert.KernelIdeal.GenRun.run_result (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.RefValue.ref_eq, agg_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
